-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x131072 : Shape := ⟨2, ![512, 131072]⟩
abbrev S64x131072 : Shape := ⟨2, ![64, 131072]⟩
abbrev S64x512 : Shape := ⟨2, ![64, 512]⟩
abbrev S_ : Shape := ⟨0, ![]⟩

class Facts : Prop where
  bcast_S_S512x131072 : S_.BroadcastsInDim S512x131072 (![] : Fin 0 → Fin S512x131072.rank)
  reducesTo_S512x131072_S_d0_1 : S512x131072.ReducesTo [0, 1] S_
  h_S_ : 0 < S_.numel
  bcast_S_S64x131072 : S_.BroadcastsInDim S64x131072 (![] : Fin 0 → Fin S64x131072.rank)
  reducesTo_S64x131072_S_d0_1 : S64x131072.ReducesTo [0, 1] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S512x131072 .f32) (main_arg1 : FVec F S64x131072 .f32) (main_arg2 : FVec F S64x512 .f32) : IVec S_ 1 :=
  let main_v0 : FVec F S512x131072 .f32 := Host.absf main_arg0
  let main_cst : FVec F S_ .f32 := constant S_ .f32 0x7F800000#32
  let main_v1 : FVec F S512x131072 .f32 := broadcastInDim S512x131072 ![] bcast_S_S512x131072 main_cst
  let main_v2 : IVec S512x131072 1 := cmpf .olt main_v0 main_v1
  let main_c : IVec S_ 1 := constantI S_ 1 1#1
  let main_v3 : IVec S_ 1 := (fun x v => Host.reduce IntOp.andi x v reducesTo_S512x131072_S_d0_1 h_S_) main_v2 main_c
  let main_v4 : FVec F S64x131072 .f32 := Host.absf main_arg1
  let main_cst_0 : FVec F S_ .f32 := constant S_ .f32 0x7F800000#32
  let main_v5 : FVec F S64x131072 .f32 := broadcastInDim S64x131072 ![] bcast_S_S64x131072 main_cst_0
  let main_v6 : IVec S64x131072 1 := cmpf .olt main_v4 main_v5
  let main_c_1 : IVec S_ 1 := constantI S_ 1 1#1
  let main_v7 : IVec S_ 1 := (fun x v => Host.reduce IntOp.andi x v reducesTo_S64x131072_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S512x131072 : Shape := ⟨2, ![512, 131072]⟩
abbrev S64x131072 : Shape := ⟨2, ![64, 131072]⟩
abbrev S64x512 : Shape := ⟨2, ![64, 512]⟩
abbrev S256x8192 : Shape := ⟨2, ![256, 8192]⟩
abbrev S64x8192 : Shape := ⟨2, ![64, 8192]⟩
abbrev S64x256 : Shape := ⟨2, ![64, 256]⟩
abbrev S64x1 : Shape := ⟨2, ![64, 1]⟩
abbrev S64 : Shape := ⟨1, ![64]⟩

abbrev nBuf : Space → Nat
  | .hbm => 4
  | .vmem => 10
  | .smem => 0
  | _ => 0

abbrev bufTy : (tb : Table) → Fin (tcTables nBuf tb) → BufTy
  | .hbm, ⟨0, _⟩ => ⟨S512x131072, .f32⟩
  | .hbm, ⟨1, _⟩ => ⟨S64x131072, .f32⟩
  | .hbm, ⟨2, _⟩ => ⟨S64x512, .f32⟩
  | .hbm, ⟨3, _⟩ => ⟨S64x512, .f32⟩
  | .local _ .vmem, ⟨0, _⟩ => ⟨S256x8192, .f32⟩
  | .local _ .vmem, ⟨1, _⟩ => ⟨S256x8192, .f32⟩
  | .local _ .vmem, ⟨2, _⟩ => ⟨S64x8192, .f32⟩
  | .local _ .vmem, ⟨3, _⟩ => ⟨S64x8192, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x1, .f32⟩
  | _, _ => ⟨S512x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x8192_S64x8192_0_0 : ∀ a, (![0, 0] : Fin 2 → Nat) a + S64x8192.size a ≤ S64x8192.size a
  h_S64x8192 : 0 < S64x8192.numel
  inb_S256x8192_S256x8192_0_0 : ∀ a, (![0, 0] : Fin 2 → Nat) a + S256x8192.size a ≤ S256x8192.size a
  h_S256x8192 : 0 < S256x8192.numel
  reduces_S64x8192_S64 : S64x8192.Reduces [1] S64
  shapeCasts_S64_S64x1 : S64.ShapeCasts S64x1
  broadcasts_S64x1_S64x256 : S64x1.Broadcasts S64x256
  dot_S64x8192_S256x8192_S64x256_1_1_0_0_n_n_wf : DotDims.WF S64x8192 S256x8192 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S512x131072.size a
  hwx0_0 : ∀ i : grid0.Coords, EltTy.bits .f32 = 32 ∨ (Rect.block (s := S512x131072) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x131072.size a
  hwx0_1 : ∀ i : grid0.Coords, EltTy.bits .f32 = 32 ∨ (Rect.block (s := S64x131072) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x512.size a
  hwx0_2 : ∀ i : grid0.Coords, EltTy.bits .f32 = 32 ∨ (Rect.block (s := S64x512) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x512.size a
  hwx0_3 : ∀ i : grid0.Coords, EltTy.bits .f32 = 32 ∨ (Rect.block (s := S64x512) S64x256.size (cc0_transform_3 i) (hinb0_3 i)).WholeWords (EltTy.packing .f32)

variable [Facts₀]

def dot_S64x8192_S256x8192_S64x256_1_1_0_0_n_n : DotDims S64x8192 S256x8192 S64x256 where
  lhsContracting := [1]
  rhsContracting := [1]
  lhsNonContracting := [0]
  rhsNonContracting := [0]
  lhsBatch := []
  rhsBatch := []
  wf := dot_S64x8192_S256x8192_S64x256_1_1_0_0_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x131072 : Shape := ⟨2, ![512, 131072]⟩
abbrev S64x131072 : Shape := ⟨2, ![64, 131072]⟩
abbrev S64x512 : Shape := ⟨2, ![64, 512]⟩
abbrev S_ : Shape := ⟨0, ![]⟩
abbrev S64 : Shape := ⟨1, ![64]⟩
abbrev S64x1 : Shape := ⟨2, ![64, 1]⟩

abbrev nBuf : Space → Nat
  | .hbm => 10
  | .vmem => 0
  | .smem => 0
  | _ => 0

abbrev bufTy : (tb : Table) → Fin (tcTables nBuf tb) → BufTy
  | .hbm, ⟨0, _⟩ => ⟨S512x131072, .f32⟩
  | .hbm, ⟨1, _⟩ => ⟨S64x131072, .f32⟩
  | .hbm, ⟨2, _⟩ => ⟨S64x512, .f32⟩
  | .hbm, ⟨3, _⟩ => ⟨S64x512, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S64x512, .f32⟩
  | .hbm, ⟨8, _⟩ => ⟨S64x512, .f32⟩
  | .hbm, ⟨9, _⟩ => ⟨S64x512, .f32⟩
  | _, _ => ⟨S512x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S64x131072_S64_d1 : S64x131072.ReducesTo [1] S64
  h_S_ : 0 < S_.numel
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  dot_S64x131072_S512x131072_S64x512_1_1_0_0_n_n_wf : DotDims.WF S64x131072 S512x131072 S64x512 [1] [1] [0] [0] [] []

variable [Facts₀]

def dot_S64x131072_S512x131072_S64x512_1_1_0_0_n_n : DotDims S64x131072 S512x131072 S64x512 where
  lhsContracting := [1]
  rhsContracting := [1]
  lhsNonContracting := [0]
  rhsNonContracting := [0]
  lhsBatch := []
  rhsBatch := []
  wf := dot_S64x131072_S512x131072_S64x512_1_1_0_0_n_n_wf

class Facts : Prop extends Facts₀ where

variable [Facts]
-- ==== Proof.Spec.lean ====
/-
  The function both programs compute, on the extended reals.

  With `x : [512, 131072]`, `a : [64, 131072]` and `c : [64, 512]`, the result at `(k, d)` is

      (∑ N, a[k, N] · x[d, N]) − c[k, d] · (∑ N, a[k, N]),

  the sums over all 131072 coordinates of the long axis. The reference forms the two sums whole; the kernel
  forms them tile by tile (16 tiles of 8192 coordinates) and adds the tiles up. On the extended reals addition is
  commutative and associative, so the two groupings give the same sum (Proof/TileSums.lean); nothing else differs.
-/
import Idealize.ShloMosaic.Lib.ValueIdx

noncomputable section

namespace Cert.VqSpec

open Idealize.ShloMosaic Idealize.ShloMosaic.ValueIdx

/-- The weighted row sums minus the scaled weights' totals: the result array as one function of the three
    argument arrays, index by index. -/
def G (x : (⟨2, ![512, 131072]⟩ : Shape).Idx → EReal) (a : (⟨2, ![64, 131072]⟩ : Shape).Idx → EReal)
    (c : (⟨2, ![64, 512]⟩ : Shape).Idx → EReal) : (⟨2, ![64, 512]⟩ : Shape).Idx → EReal :=
  fun i => (∑ N : Fin 131072, a (ix2 (n0 := 64) (n1 := 131072) (i 0) N) * x (ix2 (n0 := 512) (n1 := 131072) (i 1) N))
    - c i * ∑ N : Fin 131072, a (ix2 (n0 := 64) (n1 := 131072) (i 0) N)

end Cert.VqSpec

end
-- ==== Proof.RefValue.lean ====
/-
  The reference's result is the specification `Cert.VqSpec.G` of its three arguments.

  The reference is seven host operations: the contraction of `a` and `x` over the long axis, the row sums of `a`
  from the initial value 0, two broadcasts that lay the row sums along the columns, a product with `c` and a
  difference. Read at an index `(k, d)` (the generated stage lemmas) this is
  `(∑ N, a[k,N] · x[d,N]) − c[k,d] · (0 + ∑ N, a[k,N])`, and `0 + s = s`.
-/
import proofs.«162935_j82549271429468_1_alg».proof.Proof.Gen.ReferenceIdeal.Read
import proofs.«162935_j82549271429468_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The contraction's left operand index at `(k, d)`, `N` is `(k, N)`. -/
theorem lidx_eq (i : S64x512.Idx) (N : Fin 131072) : lidx_main_v0 i N = ix2 (n0 := 64) (n1 := 131072) (i 0) N :=
  funext fun a => Fin.ext (by match a with | ⟨0, _⟩ => rfl | ⟨1, _⟩ => rfl)

/-- The contraction's right operand index at `(k, d)`, `N` is `(d, N)`. -/
theorem ridx_eq (i : S64x512.Idx) (N : Fin 131072) : ridx_main_v0 i N = ix2 (n0 := 512) (n1 := 131072) (i 1) N :=
  funext fun a => Fin.ext (by match a with | ⟨0, _⟩ => rfl | ⟨1, _⟩ => rfl)

/-- The row sum read through the two broadcasts at `(k, d)` sums row `k`. -/
theorem sidx_eq (i : S64x512.Idx) (N : Fin 131072) :
    idx_main_v1 (idx_main_v2 (idx_main_v3 i)) N = ix2 (n0 := 64) (n1 := 131072) (i 0) N :=
  funext fun a => Fin.ext (by match a with | ⟨0, _⟩ => rfl | ⟨1, _⟩ => rfl)

/-- The reference's last stage is the specification. -/
theorem val_eq_G (x0 : (⟨S512x131072, .f32⟩ : BufTy).Contents (Elt Ideal)) (x1 : (⟨S64x131072, .f32⟩ : BufTy).Contents (Elt Ideal))
    (x2 : (⟨S64x512, .f32⟩ : BufTy).Contents (Elt Ideal)) :
    val_main_v5 (F := Ideal) x0 x1 x2 = Cert.VqSpec.G x0 x1 x2 := by
  funext i
  rw [val_main_v5_apply, val_main_v0_apply, val_main_v4_apply, val_main_v3_apply, val_main_v2_apply, val_main_v1_apply,
    val_main_cst_apply]
  show (∑ k : Fin 131072, x1 (lidx_main_v0 i k) * x0 (ridx_main_v0 i k))
      - x2 i * (Ideal.ofBits .f32 0x00000000#32 + ∑ k : Fin 131072, x1 (idx_main_v1 (idx_main_v2 (idx_main_v3 i)) k)) = _
  rw [Ideal.ofBits_zero_f32, zero_add]
  simp only [lidx_eq, ridx_eq, sidx_eq]
  rfl

end Cert.ReferenceIdeal.RefValue

end
-- ==== Proof.Pieces.lean ====
/-
  What one run of the kernel body leaves behind, as values.

  The body keeps two running quantities between grid points: a [64, 256] block of partial products and a [64, 1]
  column of partial row sums. At a point it (at the first tile of a row of the grid) resets both to zero, then adds
  to the first the product of the weights' tile with the transposed data tile, and to the second the tile's row
  sums; at the last tile it also stores "products − c-block · row sums" into the output block. Each lemma below
  reads one of those stores back as the pure term the body computed from what it loaded:

    step of the products block  : `k0_pay3 a x acc  = acc + a·xᵀ`
    step of the row-sum column  : `k0_pay4 a s      = s + rowsum a`
    the output block            : `k0_pay5 acc c s  = acc − c · s`  (s laid along the columns)
    the two resets              : `k0_pay1`, `k0_pay2` (zero blocks).
-/
import proofs.«162935_j82549271429468_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First tile of a row: the products block is reset, then stepped: `(0 + a·xᵀ)`. -/
theorem acc_A (c : Dev nD) (i : grid0.Coords) (arg2 : Memref sig .tc .vmem S256x8192 .f32) (harg2 : arg2.IsWhole) (arg3 : Memref sig .tc .vmem S64x8192 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S256x8192 .f32) (x1 : Vec F S64x8192 .f32) (x2 : Vec F S64x256 .f32) :
    sout0_A_0 c i arg2 harg2 arg3 harg3 arg4 harg4 arg5 harg5 arg6 harg6 arg7 harg7 hc0 hc1 x0 x1 x2 = k0_pay3 x1 x0 k0_pay1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S64x256) hz, View.readCov_unit_zero (S := S64x256) _ hz]
  simp only [View.readAt_eq_ld, harg2.read_unread, harg3.read_unread, harg4.read_unread, harg6.read_unread, harg7.read_unread, View.ld_unit_zero (S := S256x8192) hz, View.ld_unit_zero (S := S64x8192) hz, View.ld_unit_zero (S := S64x256) hz, View.ld_unit_zero (S := S64x1) hz]

/-- First tile of a row: the row-sum column is reset, then stepped: `(0 + rowsum a)`. -/
theorem sum_A (c : Dev nD) (i : grid0.Coords) (arg2 : Memref sig .tc .vmem S256x8192 .f32) (harg2 : arg2.IsWhole) (arg3 : Memref sig .tc .vmem S64x8192 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : cond0_0 i) (hc1 : ¬cond0_1 i)
    (x0 : Vec F S256x8192 .f32) (x1 : Vec F S64x8192 .f32) (x2 : Vec F S64x256 .f32) :
    sout0_A_1 c i arg2 harg2 arg3 harg3 arg4 harg4 arg5 harg5 arg6 harg6 arg7 harg7 hc0 hc1 x0 x1 x2 = k0_pay4 x1 k0_pay2 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S64x1) hz, View.readCov_unit_zero (S := S64x1) _ hz]
  simp only [View.readAt_eq_ld, harg2.read_unread, harg3.read_unread, harg4.read_unread, harg6.read_unread, harg7.read_unread, View.ld_unit_zero (S := S256x8192) hz, View.ld_unit_zero (S := S64x8192) hz, View.ld_unit_zero (S := S64x256) hz, View.ld_unit_zero (S := S64x1) hz]

/-- A middle tile: the products block `acc` becomes `acc + a·xᵀ`. -/
theorem acc_B (c : Dev nD) (i : grid0.Coords) (arg2 : Memref sig .tc .vmem S256x8192 .f32) (harg2 : arg2.IsWhole) (arg3 : Memref sig .tc .vmem S64x8192 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S256x8192 .f32) (x1 : Vec F S64x8192 .f32) (x2 : Vec F S64x256 .f32) (xs0 : Vec F S64x256 .f32) (xs1 : Vec F S64x1 .f32) :
    sout0_B_0 c i arg2 harg2 arg3 harg3 arg4 harg4 arg5 harg5 arg6 harg6 arg7 harg7 hc0 hc1 x0 x1 x2 xs0 xs1 = k0_pay3 x1 x0 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S256x8192) hz, View.ld_unit_zero (S := S64x8192) hz, View.ld_unit_zero (S := S64x256) hz, View.ld_unit_zero (S := S64x1) hz]

/-- A middle tile: the row-sum column `s` becomes `s + rowsum a`. -/
theorem sum_B (c : Dev nD) (i : grid0.Coords) (arg2 : Memref sig .tc .vmem S256x8192 .f32) (harg2 : arg2.IsWhole) (arg3 : Memref sig .tc .vmem S64x8192 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : ¬cond0_1 i)
    (x0 : Vec F S256x8192 .f32) (x1 : Vec F S64x8192 .f32) (x2 : Vec F S64x256 .f32) (xs0 : Vec F S64x256 .f32) (xs1 : Vec F S64x1 .f32) :
    sout0_B_1 c i arg2 harg2 arg3 harg3 arg4 harg4 arg5 harg5 arg6 harg6 arg7 harg7 hc0 hc1 x0 x1 x2 xs0 xs1 = k0_pay4 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S256x8192) hz, View.ld_unit_zero (S := S64x8192) hz, View.ld_unit_zero (S := S64x256) hz, View.ld_unit_zero (S := S64x1) hz]

/-- The last tile: the products block is stepped as at a middle tile. -/
theorem acc_C (c : Dev nD) (i : grid0.Coords) (arg2 : Memref sig .tc .vmem S256x8192 .f32) (harg2 : arg2.IsWhole) (arg3 : Memref sig .tc .vmem S64x8192 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S256x8192 .f32) (x1 : Vec F S64x8192 .f32) (x2 : Vec F S64x256 .f32) (xs0 : Vec F S64x256 .f32) (xs1 : Vec F S64x1 .f32) :
    sout0_C_0 c i arg2 harg2 arg3 harg3 arg4 harg4 arg5 harg5 arg6 harg6 arg7 harg7 hc0 hc1 x0 x1 x2 xs0 xs1 = k0_pay3 x1 x0 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S256x8192) hz, View.ld_unit_zero (S := S64x8192) hz, View.ld_unit_zero (S := S64x256) hz, View.ld_unit_zero (S := S64x1) hz]

/-- The last tile: the row-sum column is stepped as at a middle tile. -/
theorem sum_C (c : Dev nD) (i : grid0.Coords) (arg2 : Memref sig .tc .vmem S256x8192 .f32) (harg2 : arg2.IsWhole) (arg3 : Memref sig .tc .vmem S64x8192 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S256x8192 .f32) (x1 : Vec F S64x8192 .f32) (x2 : Vec F S64x256 .f32) (xs0 : Vec F S64x256 .f32) (xs1 : Vec F S64x1 .f32) :
    sout0_C_1 c i arg2 harg2 arg3 harg3 arg4 harg4 arg5 harg5 arg6 harg6 arg7 harg7 hc0 hc1 x0 x1 x2 xs0 xs1 = k0_pay4 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S256x8192) hz, View.ld_unit_zero (S := S64x8192) hz, View.ld_unit_zero (S := S64x256) hz, View.ld_unit_zero (S := S64x1) hz]

/-- The last tile: the output block is the stepped products block minus the c-block times the stepped row sums. -/
theorem out_C (c : Dev nD) (i : grid0.Coords) (arg2 : Memref sig .tc .vmem S256x8192 .f32) (harg2 : arg2.IsWhole) (arg3 : Memref sig .tc .vmem S64x8192 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x1 .f32) (harg7 : arg7.IsWhole) (hc0 : ¬cond0_0 i) (hc1 : cond0_1 i)
    (x0 : Vec F S256x8192 .f32) (x1 : Vec F S64x8192 .f32) (x2 : Vec F S64x256 .f32) (xs0 : Vec F S64x256 .f32) (xs1 : Vec F S64x1 .f32) :
    out0_C_3 c i arg2 harg2 arg3 harg3 arg4 harg4 arg5 harg5 arg6 harg6 arg7 harg7 hc0 hc1 x0 x1 x2 xs0 xs1 = k0_pay5 (k0_pay3 x1 x0 xs0) x2 (k0_pay4 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readCov_unit_zero (S := S64x256) _ hz, View.readCov_unit_zero (S := S64x1) _ hz, View.readAt_eq_ld, harg2.read_unread, harg3.read_unread, harg4.read_unread, harg6.read_unread, harg7.read_unread, View.ld_unit_zero (S := S256x8192) hz, View.ld_unit_zero (S := S64x8192) hz, View.ld_unit_zero (S := S64x256) hz, View.ld_unit_zero (S := S64x1) hz]

end Cert.KernelIdeal.Pieces

end
-- ==== Proof.Blocks.lean ====
/-
  The grid, and what each window's block is, as entries of the argument arrays.

  The grid is 2 × 16: point `t` is row `t / 16` (a block of 256 columns of the result) and tile `t % 16` (8192
  coordinates of the long axis). At point `t`
    the data block    is `x[256·(t/16) + p, 8192·(t%16) + n]`  (p < 256, n < 8192),
    the weights block is `a[k,              8192·(t%16) + n]`  (k < 64),
    the c block       is `c[k, 256·(t/16) + q]`                 (q < 256),
  and the output block sits at columns `256·(t/16) …` of the result.
-/
import proofs.«162935_j82549271429468_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The three argument arrays as the region finds them, and the three input blocks at a point, at their literal types. -/
abbrev xarr (c : Dev nD) : Vec F S512x131072 .f32 := V m c main_arg0
abbrev aarr (c : Dev nD) : Vec F S64x131072 .f32 := V m c main_arg1
abbrev carr (c : Dev nD) : Vec F S64x512 .f32 := V m c main_arg2
abbrev xblk (c : Dev nD) (t : Fin cfg0.N) : Vec F S256x8192 .f32 := iblk m c 0 t
abbrev ablk (c : Dev nD) (t : Fin cfg0.N) : Vec F S64x8192 .f32 := iblk m c 1 t
abbrev cblk (c : Dev nD) (t : Fin cfg0.N) : Vec F S64x256 .f32 := iblk m c 2 t

/-- The printed index maps over the grid: row `t / 16`, tile `t % 16`. -/
theorem idx_facts : ∀ t : Fin cfg0.N,
    win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = 0 ∧ win0_2.index t (1 : Fin 2) = t.val / 16
    ∧ win0_3.index t (0 : Fin 2) = 0 ∧ win0_3.index t (1 : Fin 2) = t.val / 16 :=
  (by decide +kernel : ∀ t : Fin grid0.N, _)

theorem N_eq : cfg0.N = 32 := N_0

/-- An entry of the data block is the entry of `x` at row `256·(t/16) + p`, coordinate `8192·(t%16) + n`. -/
theorem xblk_apply (c : Dev nD) (t : Fin cfg0.N) (y : S256x8192.Idx) (j : S512x131072.Idx)
    (h0 : (j 0).val = 256 * (t.val / 16) + (y 0).val) (h1 : (j 1).val = 8192 * (t.val % 16) + (y 1).val) :
    xblk m c t y = xarr m c j := by
  obtain ⟨e0, e1, -⟩ := idx_facts t
  show iblk m c 0 t y = V m c main_arg0 j
  unfold iblk
  rw [View.read_apply]
  show V m c main_arg0 _ = V m c main_arg0 j
  congr 1
  funext a
  apply Fin.ext
  match a with
  | ⟨0, _⟩ => show win0_0.index t (0 : Fin 2) * 256 + 1 * (y 0).val = (j 0).val; rw [e0, h0]; omega
  | ⟨1, _⟩ => show win0_0.index t (1 : Fin 2) * 8192 + 1 * (y 1).val = (j 1).val; rw [e1, h1]; omega

/-- An entry of the weights block is the entry of `a` in the same row at coordinate `8192·(t%16) + n`. -/
theorem ablk_apply (c : Dev nD) (t : Fin cfg0.N) (y : S64x8192.Idx) (j : S64x131072.Idx)
    (h0 : (j 0).val = (y 0).val) (h1 : (j 1).val = 8192 * (t.val % 16) + (y 1).val) :
    ablk m c t y = aarr m c j := by
  obtain ⟨-, -, e0, e1, -⟩ := idx_facts t
  show iblk m c 1 t y = V m c main_arg1 j
  unfold iblk
  rw [View.read_apply]
  show V m c main_arg1 _ = V m c main_arg1 j
  congr 1
  funext a
  apply Fin.ext
  match a with
  | ⟨0, _⟩ => show win0_1.index t (0 : Fin 2) * 64 + 1 * (y 0).val = (j 0).val; rw [e0, h0]; omega
  | ⟨1, _⟩ => show win0_1.index t (1 : Fin 2) * 8192 + 1 * (y 1).val = (j 1).val; rw [e1, h1]; omega

/-- An entry of the c block is the entry of `c` in the same row at column `256·(t/16) + q`. -/
theorem cblk_apply (c : Dev nD) (t : Fin cfg0.N) (y : S64x256.Idx) (j : S64x512.Idx)
    (h0 : (j 0).val = (y 0).val) (h1 : (j 1).val = 256 * (t.val / 16) + (y 1).val) :
    cblk m c t y = carr m c j := by
  obtain ⟨-, -, -, -, e0, e1, -⟩ := idx_facts t
  show iblk m c 2 t y = V m c main_arg2 j
  unfold iblk
  rw [View.read_apply]
  show V m c main_arg2 _ = V m c main_arg2 j
  congr 1
  funext a
  apply Fin.ext
  match a with
  | ⟨0, _⟩ => show win0_2.index t (0 : Fin 2) * 64 + 1 * (y 0).val = (j 0).val; rw [e0, h0]; omega
  | ⟨1, _⟩ => show win0_2.index t (1 : Fin 2) * 256 + 1 * (y 1).val = (j 1).val; rw [e1, h1]; omega

end Cert.KernelIdeal.Blocks

end
-- ==== Proof.Tiles.lean ====
/-
  One tile's two contributions, at an index, on the extended reals.

  For a weights tile `a : [64, 8192]` and a data tile `x : [256, 8192]`:
    the matrix product into a zero accumulator, contracting the long axis of both, is at `(k, p)`
        ∑ n, a[k, n] · x[p, n];
    the lane sum of `a` along its long axis, stood up as a [64, 1] column, is at `(k, 0)`
        ∑ n, a[k, n].
  Exact arithmetic: no rounding, and the order of the sum does not matter.
-/
import proofs.«162935_j82549271429468_1_alg».proof.Proof.Gen.KernelIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

theorem lhs_0 (i : S64x256.Idx) (q : dot_S64x8192_S256x8192_S64x256_1_1_0_0_n_n.contr.Idx) :
    (dot_S64x8192_S256x8192_S64x256_1_1_0_0_n_n.lhsIdx i q 0).val = (i 0).val := by
  unfold DotDims.lhsIdx
  rw [dif_neg (show ¬(0 : Fin S64x8192.rank) ∈ dot_S64x8192_S256x8192_S64x256_1_1_0_0_n_n.lhsBatch by decide), dif_pos (show (0 : Fin S64x8192.rank) ∈ dot_S64x8192_S256x8192_S64x256_1_1_0_0_n_n.lhsNonContracting by decide)]
  rfl
theorem lhs_1 (i : S64x256.Idx) (q : dot_S64x8192_S256x8192_S64x256_1_1_0_0_n_n.contr.Idx) :
    (dot_S64x8192_S256x8192_S64x256_1_1_0_0_n_n.lhsIdx i q 1).val = (q ⟨0, by decide⟩).val :=
  dot_S64x8192_S256x8192_S64x256_1_1_0_0_n_n.lhsIdx_val_of_single rfl i q
theorem rhs_0 (i : S64x256.Idx) (q : dot_S64x8192_S256x8192_S64x256_1_1_0_0_n_n.contr.Idx) :
    (dot_S64x8192_S256x8192_S64x256_1_1_0_0_n_n.rhsIdx i q 0).val = (i 1).val := by
  unfold DotDims.rhsIdx
  rw [dif_neg (show ¬(0 : Fin S256x8192.rank) ∈ dot_S64x8192_S256x8192_S64x256_1_1_0_0_n_n.rhsBatch by decide), dif_pos (show (0 : Fin S256x8192.rank) ∈ dot_S64x8192_S256x8192_S64x256_1_1_0_0_n_n.rhsNonContracting by decide)]
  rfl
theorem rhs_1 (i : S64x256.Idx) (q : dot_S64x8192_S256x8192_S64x256_1_1_0_0_n_n.contr.Idx) :
    (dot_S64x8192_S256x8192_S64x256_1_1_0_0_n_n.rhsIdx i q 1).val = (q ⟨0, by decide⟩).val :=
  dot_S64x8192_S256x8192_S64x256_1_1_0_0_n_n.rhsIdx_val_of_single rfl i q

/-- The tile's matrix product into zero, at `(k, p)`: the sum over the tile's 8192 coordinates of `a[k,n]·x[p,n]`. -/
theorem matmul_tile (a : FVec Ideal S64x8192 .f32) (x : FVec Ideal S256x8192 .f32) (i : S64x256.Idx) :
    matmul (F := Ideal) (φ₁ := .f32) (φ₂ := .f32) dot_S64x8192_S256x8192_S64x256_1_1_0_0_n_n none a x (constant (F := Ideal) S64x256 .f32 0x00000000#32) i
      = ∑ n : Fin 8192, a (ix2 (n0 := 64) (n1 := 8192) (i 0) n) * x (ix2 (n0 := 256) (n1 := 8192) (i 1) n) := by
  simp only [matmul]
  rw [Ideal.matmul_constant_zero_apply, ← Equiv.sum_comp (ValueIdx.contrEquiv1 dot_S64x8192_S256x8192_S64x256_1_1_0_0_n_n 8192 rfl rfl).symm]
  refine Finset.sum_congr rfl fun n _ => ?_
  have hk := ValueIdx.contrEquiv1_symm_val dot_S64x8192_S256x8192_S64x256_1_1_0_0_n_n 8192 rfl rfl n
  have el : dot_S64x8192_S256x8192_S64x256_1_1_0_0_n_n.lhsIdx i ((ValueIdx.contrEquiv1 dot_S64x8192_S256x8192_S64x256_1_1_0_0_n_n 8192 rfl rfl).symm n) = ix2 (n0 := 64) (n1 := 8192) (i 0) n := funext fun b => Fin.ext (by
    match b with
    | ⟨0, _⟩ => exact lhs_0 _ _
    | ⟨1, _⟩ => exact (lhs_1 _ _).trans hk)
  have er : dot_S64x8192_S256x8192_S64x256_1_1_0_0_n_n.rhsIdx i ((ValueIdx.contrEquiv1 dot_S64x8192_S256x8192_S64x256_1_1_0_0_n_n 8192 rfl rfl).symm n) = ix2 (n0 := 256) (n1 := 8192) (i 1) n := funext fun b => Fin.ext (by
    match b with
    | ⟨0, _⟩ => exact rhs_0 _ _
    | ⟨1, _⟩ => exact (rhs_1 _ _).trans hk)
  rw [el, er]

/-- The tile's lane sum as a column, at `(k, 0)`: the sum over the tile's 8192 coordinates of `a[k,n]`. -/
theorem rowsum_tile (a : FVec Ideal S64x8192 .f32) (hφ : FKind.Formats .f32) (hacc : (0x00000000#32 : BitVec 32) = 0x00000000#32)
    (i : S64x1.Idx) :
    shapeCast S64x1 (multiReduction (F := Ideal) .add [1] S64 a 0x00000000#32 reduces_S64x8192_S64 hφ hacc) shapeCasts_S64_S64x1 i
      = ∑ n : Fin 8192, a (ix2 (n0 := 64) (n1 := 8192) (i 0) n) := by
  have hi1 : (i 1).val = 0 := by have h : (i 1).val < 1 := (i 1).isLt; omega
  refine (shapeCast_apply _ shapeCasts_S64_S64x1 i (ix1 (n := 64) (i 0)) ?_).trans ?_
  · rw [Shape.rowMajor_val_one, Shape.rowMajor_val_two]
    show (i 0).val = (i 0).val * 1 + (i 1).val
    omega
  · refine (Ideal.multiReduction_add_single a 0x00000000#32 reduces_S64x8192_S64 hφ hacc (ix1 (n := 64) (i 0))).trans ?_
    refine Finset.sum_congr rfl fun n _ => congrArg a (funext fun b => Fin.ext (by
      match b with
      | ⟨0, _⟩ => rfl
      | ⟨1, _⟩ => rfl))

end Cert.KernelIdeal.Tiles

end
-- ==== Proof.Payloads.lean ====
/-
  The body's five stored values at an index, on the extended reals.

    the two resets           : 0 everywhere;
    the products block's step: `acc[k,p] + ∑ n, a[k,n] · x[p,n]`;
    the row-sum column's step: `s[k,0] + ∑ n, a[k,n]`;
    the output block         : `acc[k,p] − cb[k,p] · s[k,0]` (the column laid along the 256 columns).
  The shape casts between equal shapes are the identity; the tile product and the tile row sum are read in
  Proof/Tiles.lean.
-/
import proofs.«162935_j82549271429468_1_alg».proof.Proof.Gen.KernelIdeal.Skeleton
import proofs.«162935_j82549271429468_1_alg».proof.Proof.Tiles

noncomputable section

open Idealize.ShloMosaic Idealize.ShloMosaic.TcCoe Idealize.SL.Sem Idealize.ShloMosaic.ValueIdx
open Idealize.ShloMosaic.Pipeline (Dat)

namespace Cert.KernelIdeal.Payloads

open Cert.KernelIdeal Cert.KernelIdeal.Gen

/-- The reset of the products block stores zeros. -/
theorem pay1_apply (i : S64x256.Idx) : k0_pay1 (F := Ideal) i = 0 := by
  unfold k0_pay1
  simp only [shapeCast_self]
  show Ideal.ofBits .f32 0x00000000#32 = 0
  exact Ideal.ofBits_zero_f32

/-- The reset of the row-sum column stores zeros. -/
theorem pay2_apply (i : S64x1.Idx) : k0_pay2 (F := Ideal) i = 0 := by
  unfold k0_pay2
  simp only [shapeCast_self]
  show Ideal.ofBits .f32 0x00000000#32 = 0
  exact Ideal.ofBits_zero_f32

/-- The products block's step adds the tile's products. -/
theorem pay3_apply (a : Vec Ideal S64x8192 .f32) (x : Vec Ideal S256x8192 .f32) (acc : Vec Ideal S64x256 .f32) (i : S64x256.Idx) :
    k0_pay3 (F := Ideal) a x acc i
      = acc i + ∑ n : Fin 8192, a (ix2 (n0 := 64) (n1 := 8192) (i 0) n) * x (ix2 (n0 := 256) (n1 := 8192) (i 1) n) := by
  unfold k0_pay3
  simp only [shapeCast_self]
  exact congrArg (acc i + ·) (Tiles.matmul_tile a x i)

/-- The row-sum column's step adds the tile's row sums. -/
theorem pay4_apply (a : Vec Ideal S64x8192 .f32) (s : Vec Ideal S64x1 .f32) (i : S64x1.Idx) :
    k0_pay4 (F := Ideal) a s i = s i + ∑ n : Fin 8192, a (ix2 (n0 := 64) (n1 := 8192) (i 0) n) := by
  unfold k0_pay4
  simp only [shapeCast_self]
  exact congrArg (s i + ·) (Tiles.rowsum_tile a _ _ i)

/-- The output block: the products minus the c block times the row sum of the same row. -/
theorem pay5_apply (acc : Vec Ideal S64x256 .f32) (cb : Vec Ideal S64x256 .f32) (s : Vec Ideal S64x1 .f32) (i : S64x256.Idx) :
    k0_pay5 (F := Ideal) acc cb s i = acc i - cb i * s (ix2 (n0 := 64) (n1 := 1) (i 0) 0) := by
  unfold k0_pay5
  show acc i - cb i * broadcastTo S64x256 s broadcasts_S64x1_S64x256 i = _
  rw [broadcastTo_apply s broadcasts_S64x1_S64x256 i (ix2 (n0 := 64) (n1 := 1) (i 0) 0) (fun b => by
    match b with
    | ⟨0, _⟩ => show (i 0).val = if (64 : Nat) = 1 then 0 else (i 0).val; rw [if_neg (by decide)]
    | ⟨1, _⟩ => show 0 = if (1 : Nat) = 1 then 0 else (i 1).val; rw [if_pos rfl])]

end Cert.KernelIdeal.Payloads

end
-- ==== Proof.Fold.lean ====
/-
  What the two running quantities hold after each grid point, and what the last tile of a row stores.

  Along a row of the grid (points `16·q … 16·q + 15`) the products block is reset at the first point and then
  receives one tile's products per point, so after point `t` it holds, entry by entry,
      0 + ∑ s ≤ t % 16, (tile `s`'s products),
  and the row-sum column likewise holds `0 + ∑ s ≤ t % 16, (tile `s`'s row sums)`. This is the generated fold of
  the two carried buffers, unrolled by the library's lemma for a fold whose every step adds. At the last tile
  (`t % 16 = 15`) the output block is "products − c-block · row sums" of those totals.
-/
import proofs.«162935_j82549271429468_1_alg».proof.Proof.Gen.KernelIdeal.Value
import proofs.«162935_j82549271429468_1_alg».proof.Proof.Pieces
import proofs.«162935_j82549271429468_1_alg».proof.Proof.Blocks
import proofs.«162935_j82549271429468_1_alg».proof.Proof.Payloads

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Value Cert.KernelIdeal.Blocks

variable (m : (ℓ : Loc nD τ sig) → Buf (Elt Ideal) ℓ)

/-- The products point `n` adds to the block, entry by entry (0 past the grid, where nothing is added). -/
def prodAt (c : Dev nD) (n : ℕ) : S64x256.Idx → EReal := fun i =>
  if h : n < cfg0.N then
    ∑ k : Fin 8192, ablk m c ⟨n, h⟩ (ix2 (n0 := 64) (n1 := 8192) (i 0) k) * xblk m c ⟨n, h⟩ (ix2 (n0 := 256) (n1 := 8192) (i 1) k)
  else 0

/-- The row sums point `n` adds to the column. -/
def rsumAt (c : Dev nD) (n : ℕ) : S64x1.Idx → EReal := fun i =>
  if h : n < cfg0.N then ∑ k : Fin 8192, ablk m c ⟨n, h⟩ (ix2 (n0 := 64) (n1 := 8192) (i 0) k) else 0

/-- At the first point of a row the products block ends at `0 +` that point's products, whatever it held. -/
theorem acc_reset (c : Dev nD) (n : ℕ) (h : n < cfg0.N) (hn : n % 16 = 0) (acc : Vec Ideal S64x256 .f32) (i : S64x256.Idx) :
    scAt0_0 m c n h acc i = 0 + prodAt m c n i := by
  have hN : n < 32 := lt_of_lt_of_eq h N_eq
  unfold scAt0_0
  rw [dif_pos hn, dif_neg (by omega)]
  refine (congrFun (Pieces.acc_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (xblk m c ⟨n, h⟩) (ablk m c ⟨n, h⟩) (cblk m c ⟨n, h⟩)) i).trans ?_
  rw [Payloads.pay3_apply, Payloads.pay1_apply]
  unfold prodAt
  rw [dif_pos h]

/-- At every other point it ends at what it held plus that point's products. -/
theorem acc_step (c : Dev nD) (n : ℕ) (h : n < cfg0.N) (hn : ¬n % 16 = 0) (acc : Vec Ideal S64x256 .f32) (i : S64x256.Idx) :
    scAt0_0 m c n h acc i = acc i + prodAt m c n i := by
  unfold scAt0_0
  rw [dif_neg hn]
  by_cases h1 : n % 16 = 15
  · rw [dif_pos h1]
    refine (congrFun (Pieces.acc_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (xblk m c ⟨n, h⟩) (ablk m c ⟨n, h⟩) (cblk m c ⟨n, h⟩) acc _) i).trans ?_
    rw [Payloads.pay3_apply]
    unfold prodAt
    rw [dif_pos h]
  · rw [dif_neg h1]
    refine (congrFun (Pieces.acc_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (xblk m c ⟨n, h⟩) (ablk m c ⟨n, h⟩) (cblk m c ⟨n, h⟩) acc _) i).trans ?_
    rw [Payloads.pay3_apply]
    unfold prodAt
    rw [dif_pos h]

/-- The row-sum column at the first point of a row. -/
theorem sum_reset (c : Dev nD) (n : ℕ) (h : n < cfg0.N) (hn : n % 16 = 0) (s : Vec Ideal S64x1 .f32) (i : S64x1.Idx) :
    scAt0_1 m c n h s i = 0 + rsumAt m c n i := by
  have hN : n < 32 := lt_of_lt_of_eq h N_eq
  unfold scAt0_1
  rw [dif_pos hn, dif_neg (by omega)]
  refine (congrFun (Pieces.sum_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (xblk m c ⟨n, h⟩) (ablk m c ⟨n, h⟩) (cblk m c ⟨n, h⟩)) i).trans ?_
  rw [Payloads.pay4_apply, Payloads.pay2_apply]
  unfold rsumAt
  rw [dif_pos h]

/-- The row-sum column at every other point. -/
theorem sum_step (c : Dev nD) (n : ℕ) (h : n < cfg0.N) (hn : ¬n % 16 = 0) (s : Vec Ideal S64x1 .f32) (i : S64x1.Idx) :
    scAt0_1 m c n h s i = s i + rsumAt m c n i := by
  unfold scAt0_1
  rw [dif_neg hn]
  by_cases h1 : n % 16 = 15
  · rw [dif_pos h1]
    refine (congrFun (Pieces.sum_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (xblk m c ⟨n, h⟩) (ablk m c ⟨n, h⟩) (cblk m c ⟨n, h⟩) _ s) i).trans ?_
    rw [Payloads.pay4_apply]
    unfold rsumAt
    rw [dif_pos h]
  · rw [dif_neg h1]
    refine (congrFun (Pieces.sum_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (xblk m c ⟨n, h⟩) (ablk m c ⟨n, h⟩) (cblk m c ⟨n, h⟩) _ s) i).trans ?_
    rw [Payloads.pay4_apply]
    unfold rsumAt
    rw [dif_pos h]

/-- THE PRODUCTS BLOCK after point `t`: zero plus the products of the row's tiles up to `t`. -/
theorem acc_at (c : Dev nD) (t : Fin cfg0.N) (i : S64x256.Idx) :
    (outsAt0 m c t.val t.isLt).2.1 i = 0 + ∑ s ∈ Finset.range (t.val % 16 + 1), prodAt m c (16 * (t.val / 16) + s) i := by
  have hN : t.val < 32 := lt_of_lt_of_eq t.isLt N_eq
  rw [soutsAt0_0_eq m c t]
  exact Pipeline.accAt_add_apply (ι := S64x256.Idx) (β := EReal) _ _ (fun _ => 0) (prodAt m c) (16 * (t.val / 16)) 15
    (fun h i => acc_reset m c _ h (by omega) _ i)
    (fun n h acc i h1 h2 => acc_step m c n h (by omega) acc i)
    (t.val % 16) (by omega) _ i

/-- THE ROW-SUM COLUMN after point `t`. -/
theorem sum_at (c : Dev nD) (t : Fin cfg0.N) (i : S64x1.Idx) :
    (outsAt0 m c t.val t.isLt).2.2 i = 0 + ∑ s ∈ Finset.range (t.val % 16 + 1), rsumAt m c (16 * (t.val / 16) + s) i := by
  have hN : t.val < 32 := lt_of_lt_of_eq t.isLt N_eq
  rw [soutsAt0_1_eq m c t]
  exact Pipeline.accAt_add_apply (ι := S64x1.Idx) (β := EReal) _ _ (fun _ => 0) (rsumAt m c) (16 * (t.val / 16)) 15
    (fun h i => sum_reset m c _ h (by omega) _ i)
    (fun n h acc i h1 h2 => sum_step m c n h (by omega) acc i)
    (t.val % 16) (by omega) _ i

/-- At the last tile of a row the output block is computed from the two quantities AS THEY END at that point. -/
theorem out_at (c : Dev nD) (t : Fin cfg0.N) (h0 : ¬t.val % 16 = 0) (h1 : t.val % 16 = 15) :
    (outsAt0 m c t.val t.isLt).1
      = k0_pay5 (F := Ideal) (outsAt0 m c t.val t.isLt).2.1 (cblk m c t) (outsAt0 m c t.val t.isLt).2.2 := by
  rw [outsAt0_C m c t h0 h1]
  dsimp only
  refine (Pieces.out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (xblk m c t) (ablk m c t) (cblk m c t) _ _).trans ?_
  refine congr (congrArg (fun u => k0_pay5 (F := Ideal) u (cblk m c t)) ?_) ?_
  · exact (Pieces.acc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (xblk m c t) (ablk m c t) (cblk m c t) _ _).symm
  · exact (Pieces.sum_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (xblk m c t) (ablk m c t) (cblk m c t) _ _).symm

/-- … so, entry by entry: all sixteen tiles' products minus the c block times all sixteen tiles' row sums. -/
theorem out_apply (c : Dev nD) (t : Fin cfg0.N) (h1 : t.val % 16 = 15) (y : S64x256.Idx) :
    (outsAt0 m c t.val t.isLt).1 y
      = (∑ s ∈ Finset.range 16, prodAt m c (16 * (t.val / 16) + s) y)
        - cblk m c t y * ∑ s ∈ Finset.range 16, rsumAt m c (16 * (t.val / 16) + s) (ix2 (n0 := 64) (n1 := 1) (y 0) 0) := by
  rw [out_at m c t (by omega) h1, Payloads.pay5_apply, acc_at, sum_at, h1, zero_add, zero_add]

end Cert.KernelIdeal.Fold

end
-- ==== Proof.TileSums.lean ====
/-
  Sums over the long axis, taken tile by tile.

  The long axis has 131072 = 16 · 8192 coordinates. A sum over all of them is the sum, over the 16 tiles, of
  the sums inside each tile: in a commutative monoid this is only a re-indexing of the terms (no finiteness of
  the terms is needed, so it holds on the extended reals as it stands).
-/
import Mathlib.Algebra.BigOperators.Fin
import Mathlib.Logic.Equiv.Fin.Basic

namespace Cert.TileSums

open Finset

/-- A sum over `Fin (16 * 8192)` is the iterated sum over the tile and the place inside the tile; the term at
    tile `b`, place `n` is the one at coordinate `8192 * b + n`. -/
theorem sum_tiles' {M : Type*} [AddCommMonoid M] (g : ℕ → M) :
    ∑ b : Fin 16, ∑ n : Fin 8192, g (8192 * b.val + n.val) = ∑ N : Fin (16 * 8192), g N.val := by
  rw [← Fintype.sum_prod_type' (f := fun (b : Fin 16) (n : Fin 8192) => g (8192 * b.val + n.val))]
  refine Fintype.sum_equiv finProdFinEquiv _ _ (fun p => ?_)
  refine congrArg g ?_
  show 8192 * p.1.val + p.2.val = p.2.val + 8192 * p.1.val
  omega

/-- The same with the tiles counted by `Finset.range 16` and the whole axis by `Fin 131072`. -/
theorem sum_tiles {M : Type*} [AddCommMonoid M] (g : ℕ → M) :
    ∑ b ∈ range 16, ∑ n : Fin 8192, g (8192 * b + n.val) = ∑ N : Fin 131072, g N.val := by
  rw [← Fin.sum_univ_eq_sum_range (fun b => ∑ n : Fin 8192, g (8192 * b + n.val)) 16]
  exact sum_tiles' g

end Cert.TileSums
-- ==== Proof.Result.lean ====
/-
  The result array after the run is the specification `Cert.VqSpec.G` of the three argument arrays.

  Only the last tile of each grid row writes its output block back, to columns `256·q … 256·q + 255` of the
  result (q the row). What it writes is, at `(k, p)`,
      (∑ over the row's 16 tiles of that tile's products) − c[k, 256q+p] · (∑ over the 16 tiles of the row sums),
  and a sum over the 16 tiles of the sums inside each tile is the sum over the whole long axis
  (Proof/TileSums.lean): so the block is the specification's block. The two rows' blocks cover the array.
-/
import proofs.«162935_j82549271429468_1_alg».proof.Proof.Fold
import proofs.«162935_j82549271429468_1_alg».proof.Proof.Spec
import proofs.«162935_j82549271429468_1_alg».proof.Proof.TileSums

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Value Cert.KernelIdeal.Blocks Cert.KernelIdeal.Fold

variable (m : (ℓ : Loc nD τ sig) → Buf (Elt Ideal) ℓ) (ρ : Dev nD → PrngReg)

/-- The products of the 16 tiles of row `q`, added up, are the contraction over the whole long axis. -/
theorem prod_total (c : Dev nD) (q : ℕ) (hq : q < 2) (y : S64x256.Idx) (j : S64x512.Idx)
    (h0 : (j 0).val = (y 0).val) (h1 : (j 1).val = 256 * q + (y 1).val) :
    ∑ s ∈ Finset.range 16, prodAt m c (16 * q + s) y
      = ∑ N : Fin 131072, aarr m c (ix2 (n0 := 64) (n1 := 131072) (j 0) N) * xarr m c (ix2 (n0 := 512) (n1 := 131072) (j 1) N) := by
  let g : ℕ → EReal := fun N =>
    if h : N < 131072 then aarr m c (ix2 (n0 := 64) (n1 := 131072) (j 0) ⟨N, h⟩) * xarr m c (ix2 (n0 := 512) (n1 := 131072) (j 1) ⟨N, h⟩) else 0
  have hg : ∀ s ∈ Finset.range 16, prodAt m c (16 * q + s) y = ∑ k : Fin 8192, g (8192 * s + k.val) := by
    intro s hs
    have hs' : s < 16 := Finset.mem_range.mp hs
    have hlt : 16 * q + s < cfg0.N := by rw [N_eq]; omega
    unfold prodAt
    rw [dif_pos hlt]
    refine Finset.sum_congr rfl fun k _ => ?_
    have hk : 8192 * s + k.val < 131072 := by have := k.isLt; omega
    show _ = (if h : 8192 * s + k.val < 131072 then _ else 0)
    rw [dif_pos hk]
    rw [ablk_apply m c ⟨16 * q + s, hlt⟩ (ix2 (n0 := 64) (n1 := 8192) (y 0) k) (ix2 (n0 := 64) (n1 := 131072) (j 0) ⟨8192 * s + k.val, hk⟩) h0
        (by show 8192 * s + k.val = 8192 * ((16 * q + s) % 16) + k.val; omega),
      xblk_apply m c ⟨16 * q + s, hlt⟩ (ix2 (n0 := 256) (n1 := 8192) (y 1) k) (ix2 (n0 := 512) (n1 := 131072) (j 1) ⟨8192 * s + k.val, hk⟩)
        (by show (j 1).val = 256 * ((16 * q + s) / 16) + (y 1).val; omega)
        (by show 8192 * s + k.val = 8192 * ((16 * q + s) % 16) + k.val; omega)]
  rw [Finset.sum_congr rfl hg, Cert.TileSums.sum_tiles g]
  exact Finset.sum_congr rfl fun N _ => dif_pos N.isLt

/-- The row sums of the 16 tiles, added up, are the row sums over the whole long axis. -/
theorem rsum_total (c : Dev nD) (q : ℕ) (hq : q < 2) (y : S64x1.Idx) (j : S64x512.Idx) (h0 : (j 0).val = (y 0).val) :
    ∑ s ∈ Finset.range 16, rsumAt m c (16 * q + s) y
      = ∑ N : Fin 131072, aarr m c (ix2 (n0 := 64) (n1 := 131072) (j 0) N) := by
  let g : ℕ → EReal := fun N => if h : N < 131072 then aarr m c (ix2 (n0 := 64) (n1 := 131072) (j 0) ⟨N, h⟩) else 0
  have hg : ∀ s ∈ Finset.range 16, rsumAt m c (16 * q + s) y = ∑ k : Fin 8192, g (8192 * s + k.val) := by
    intro s hs
    have hs' : s < 16 := Finset.mem_range.mp hs
    have hlt : 16 * q + s < cfg0.N := by rw [N_eq]; omega
    unfold rsumAt
    rw [dif_pos hlt]
    refine Finset.sum_congr rfl fun k _ => ?_
    have hk : 8192 * s + k.val < 131072 := by have := k.isLt; omega
    show _ = (if h : 8192 * s + k.val < 131072 then _ else 0)
    rw [dif_pos hk]
    exact ablk_apply m c ⟨16 * q + s, hlt⟩ (ix2 (n0 := 64) (n1 := 8192) (y 0) k) (ix2 (n0 := 64) (n1 := 131072) (j 0) ⟨8192 * s + k.val, hk⟩) h0
        (by show 8192 * s + k.val = 8192 * ((16 * q + s) % 16) + k.val; omega)
  rw [Finset.sum_congr rfl hg, Cert.TileSums.sum_tiles g]
  exact Finset.sum_congr rfl fun N _ => dif_pos N.isLt

/-- The specification of the arrays as the region finds them, as contents of the result array. -/
abbrev result (c : Dev nD) : Buf (Elt Ideal) ((c : Thread nD τ).loc main_v0) :=
  Cert.VqSpec.G (xarr m c) (aarr m c) (carr m c)

/-- An entry `(k, p)` of the block the last tile of row `t / 16` stores is the specification at `(k, 256·(t/16) + p)`. -/
theorem out_is_spec (c : Dev nD) (t : Fin cfg0.N) (h15 : t.val % 16 = 15) (y : S64x256.Idx) (j : S64x512.Idx)
    (h0 : (j 0).val = (y 0).val) (h1 : (j 1).val = 256 * (t.val / 16) + (y 1).val) :
    (outsAt0 m c t.val t.isLt).1 y = result m c j := by
  have hN : t.val < 32 := lt_of_lt_of_eq t.isLt N_eq
  rw [out_apply m c t h15 y, prod_total m c (t.val / 16) (by omega) y j h0 h1,
    rsum_total m c (t.val / 16) (by omega) (ix2 (n0 := 64) (n1 := 1) (y 0) 0) j h0, cblk_apply m c t y j h0 h1]
  rfl

/-- WHAT A FLUSHING POINT WRITES BACK is its block of the specification. -/
theorem flushed_eq (c : Dev nD) (t : Fin cfg0.N) (hf : (cfg0.win 3).flush t = true) :
    (dats m 0 c).flushed 3 t = ((cfg0.win 3).blk t).view.read (Elt Ideal) (result m c) := by
  have h15 : t.val % 16 = 15 := (flush0_3 t).mp hf
  obtain ⟨-, -, -, -, -, -, e0, e1⟩ := idx_facts t
  rw [flushed3]
  funext y
  show (outsAt0 m c t.val t.isLt).1 y = result m c (((cfg0.win 3).blk t).view.emb y)
  refine out_is_spec m c t h15 y _ ?_ ?_
  · show win0_3.index t (0 : Fin 2) * 64 + 1 * (y 0).val = (y 0).val
    rw [e0]; omega
  · show win0_3.index t (1 : Fin 2) * 256 + 1 * (y 1).val = 256 * (t.val / 16) + (y 1).val
    rw [e1]; omega

/-- An index of the result is in point `t`'s output block iff each coordinate is in the block's range. -/
theorem mem_blk (t : Fin cfg0.N) (i : S64x512.Idx) :
    i ∈ ((cfg0.win 3).blk t).view.set ↔ ∀ a : Fin 2, win0_3.index t a * S64x256.size a ≤ (i a).val ∧ (i a).val < win0_3.index t a * S64x256.size a + S64x256.size a := by
  show i ∈ ((View.whole main_v0).slice (win0_3.rect t)).set ↔ _
  rw [View.set_slice_whole, Rect.mem_set_unit]
  exact Iff.rfl

/-- Every index of the result lies in the block of the last tile of its row. -/
theorem cover (i : S64x512.Idx) : ∃ t : Fin cfg0.N, (cfg0.win 3).flush t = true ∧ i ∈ ((cfg0.win 3).blk t).view.set := by
  have hi0 : (i 0).val < 64 := (i 0).isLt
  have hi1 : (i 1).val < 512 := (i 1).isLt
  have hlt : 16 * ((i 1).val / 256) + 15 < cfg0.N := by rw [N_eq]; omega
  refine ⟨⟨16 * ((i 1).val / 256) + 15, hlt⟩, (flush0_3 _).mpr (by show (16 * ((i 1).val / 256) + 15) % 16 = 15; omega), ?_⟩
  obtain ⟨-, -, -, -, -, -, e0, e1⟩ := idx_facts ⟨16 * ((i 1).val / 256) + 15, hlt⟩
  rw [mem_blk]
  intro a
  match a with
  | ⟨0, _⟩ =>
    show win0_3.index _ (0 : Fin 2) * 64 ≤ (i 0).val ∧ (i 0).val < win0_3.index _ (0 : Fin 2) * 64 + 64
    rw [e0]; omega
  | ⟨1, _⟩ =>
    show win0_3.index _ (1 : Fin 2) * 256 ≤ (i 1).val ∧ (i 1).val < win0_3.index _ (1 : Fin 2) * 256 + 256
    rw [e1]
    show (16 * ((i 1).val / 256) + 15) / 16 * 256 ≤ (i 1).val ∧ (i 1).val < (16 * ((i 1).val / 256) + 15) / 16 * 256 + 256
    omega

/-- So the result array ends holding the specification. -/
theorem final (c : Dev nD) : (dats m 0 c).arrAt 3 cfg0.N = result m c :=
  (dats m 0 c).arrAt_eq_of_cover 3 (result m c) (flushed_eq m c) cover

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Result

end
-- ==== Proof.lean ====
/-
  The certificate's proof: a tiled, accumulating kernel against the whole-array reference, on the extended reals.

  Both programs compute, for `x : [512, 131072]`, `a : [64, 131072]`, `c : [64, 512]`,

      out[k, d] = (∑ N, a[k, N] · x[d, N]) − c[k, d] · (∑ N, a[k, N]).

  The reference takes the two sums over the whole long axis at once. The kernel walks a 2 × 16 grid: a row of the
  grid owns 256 columns `d`, a tile owns 8192 coordinates `N`; it keeps the partial products and the partial row
  sums in two buffers, resets them at a row's first tile, adds one tile's share at every point, and at the row's
  last tile stores "products − c · row sums". On the extended reals addition is commutative and associative, so the
  sum of the sixteen tile sums is the sum over the whole axis; no finiteness of the inputs is used.

  The three runs terminate without fault and keep their arguments (the frames); the idealized kernel is the
  kernel's own text read exactly (nothing was rewritten); and the two idealized programs end with the same result.
  The modules: TileSums (the re-indexing of a sum by tiles), Spec (the function above), RefValue (the reference
  computes it), Pieces / Payloads / Tiles (what one run of the body stores, entry by entry), Blocks (the windows'
  blocks as entries of the arguments), Fold (the two buffers after each point), Result (the result array).
-/
import proofs.«162935_j82549271429468_1_alg».proof.Defs
import proofs.«162935_j82549271429468_1_alg».proof.Proof.Gen.Kernel
import proofs.«162935_j82549271429468_1_alg».proof.Proof.Gen.Kernel.Skeleton
import proofs.«162935_j82549271429468_1_alg».proof.Proof.Gen.Kernel.Launch
import proofs.«162935_j82549271429468_1_alg».proof.Proof.Gen.Kernel.Points
import proofs.«162935_j82549271429468_1_alg».proof.Proof.Gen.Kernel.Frame
import proofs.«162935_j82549271429468_1_alg».proof.Proof.Gen.KernelIdeal
import proofs.«162935_j82549271429468_1_alg».proof.Proof.Gen.KernelIdeal.Skeleton
import proofs.«162935_j82549271429468_1_alg».proof.Proof.Gen.KernelIdeal.Launch
import proofs.«162935_j82549271429468_1_alg».proof.Proof.Gen.KernelIdeal.Points
import proofs.«162935_j82549271429468_1_alg».proof.Proof.Gen.KernelIdeal.Frame
import proofs.«162935_j82549271429468_1_alg».proof.Proof.Gen.ReferenceIdeal
import proofs.«162935_j82549271429468_1_alg».proof.Proof.Gen.Pre_finite_inputs
import proofs.«162935_j82549271429468_1_alg».proof.Proof.Gen.KernelIdeal.Value
import proofs.«162935_j82549271429468_1_alg».proof.Proof.Gen.ReferenceIdeal.Run
import proofs.«162935_j82549271429468_1_alg».proof.Proof.Gen.ReferenceIdeal.Read
import proofs.«162935_j82549271429468_1_alg».proof.Proof.RefValue
import proofs.«162935_j82549271429468_1_alg».proof.Proof.Result
import Idealize.ShloMosaic.Adequacy
import Idealize.ShloMosaic.Init

noncomputable section

namespace Cert.Proof

open Idealize.ShloMosaic Idealize.SL.Sem Cert.Kernel

/-- The three frames. The reference has no kernel: its frame is its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the specification of those
    arguments in their result arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.val_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
